-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x4096 : Shape := ⟨2, ![512, 4096]⟩
abbrev S4096x512 : Shape := ⟨2, ![4096, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x4096 .f32) (main_arg5 : FVec F S512x4096 .f32) (main_arg6 : FVec F S4096x512 .f32) (main_arg7 : FVec F S512 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg7 main_v33

def fn {F : FTy → Type} [FloatOps F] (main_arg0 : FVec F S32768x512 .f32) (main_arg1 : FVec F S32768x512 .f32) (main_arg2 : FVec F S32768x512 .f32) (main_arg3 : FVec F S512x4096 .f32) (main_arg4 : FVec F S512x4096 .f32) (main_arg5 : FVec F S512x4096 .f32) (main_arg6 : FVec F S4096x512 .f32) (main_arg7 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg4 main_arg5 main_arg6 main_arg7 main_v13 main_v16
-- ==== Kernel.lean ====
abbrev S32768x512 : Shape := ⟨2, ![32768, 512]⟩
abbrev S512x4096 : Shape := ⟨2, ![512, 4096]⟩
abbrev S4096x512 : Shape := ⟨2, ![4096, 512]⟩
abbrev S512 : Shape := ⟨1, ![512]⟩
abbrev S1x512 : Shape := ⟨2, ![1, 512]⟩
abbrev S128x512 : Shape := ⟨2, ![128, 512]⟩
abbrev S128x4096 : Shape := ⟨2, ![128, 4096]⟩
abbrev S128x8x512 : Shape := ⟨3, ![128, 8, 512]⟩
abbrev S128x8x8 : Shape := ⟨3, ![128, 8, 8]⟩
abbrev S128x8 : Shape := ⟨2, ![128, 8]⟩
abbrev S128x8x1 : Shape := ⟨3, ![128, 8, 1]⟩

abbrev nBuf : Space → Nat
  | .hbm => 14
  | .vmem => 13
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S4096x512, .f32⟩
  | .hbm, ⟨7, _⟩ => ⟨S512, .f32⟩
  | .hbm, ⟨8, _⟩ => ⟨S512x4096, .bf16⟩
  | .hbm, ⟨9, _⟩ => ⟨S512x4096, .bf16⟩
  | .hbm, ⟨10, _⟩ => ⟨S512x4096, .bf16⟩
  | .hbm, ⟨11, _⟩ => ⟨S4096x512, .bf16⟩
  | .hbm, ⟨12, _⟩ => ⟨S1x512, .f32⟩
  | .hbm, ⟨13, _⟩ => ⟨S32768x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S4096x512, .bf16⟩
  | .local _ .vmem, ⟨10, _⟩ => ⟨S1x512, .f32⟩
  | .local _ .vmem, ⟨11, _⟩ => ⟨S128x512, .f32⟩
  | .local _ .vmem, ⟨12, _⟩ => ⟨S128x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S512_S1x512 : S512.ShapeCasts S1x512
  inb_S128x512_S128x512_0_0 : ∀ a, (![0, 0] : Fin 2 → Nat) a + S128x512.size a ≤ S128x512.size a
  h_S128x512 : 0 < S128x512.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S128x4096_S128x8x512 : S128x4096.ShapeCasts S128x8x512
  reduces_S128x8x8_S128x8 : S128x8x8.Reduces [2] S128x8
  shapeCasts_S128x8_S128x8x1 : S128x8.ShapeCasts S128x8x1
  broadcasts_S128x8x1_S128x8x8 : S128x8x1.Broadcasts S128x8x8
  shapeCasts_S128x8x512_S128x4096 : S128x8x512.ShapeCasts S128x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  dot_S128x512_S512x4096_S128x4096_1_0_0_1_n_n_wf : DotDims.WF S128x512 S512x4096 S128x4096 [1] [0] [0] [1] [] []
  dot_S128x8x512_S128x8x512_S128x8x8_2_2_1_1_0_0_wf : DotDims.WF S128x8x512 S128x8x512 S128x8x8 [2] [2] [1] [1] [0] [0]
  dot_S128x8x8_S128x8x512_S128x8x512_2_1_1_2_0_0_wf : DotDims.WF S128x8x8 S128x8x512 S128x8x512 [2] [1] [1] [2] [0] [0]
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S32768x512.size a
  hwx0_0 : ∀ i : grid0.Coords, EltTy.bits .f32 = 32 ∨ (Rect.block (s := S32768x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S32768x512.size a
  hwx0_1 : ∀ i : grid0.Coords, EltTy.bits .f32 = 32 ∨ (Rect.block (s := S32768x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S32768x512.size a
  hwx0_2 : ∀ i : grid0.Coords, EltTy.bits .f32 = 32 ∨ (Rect.block (s := S32768x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S512x4096.size a
  hwx0_4 : ∀ i : grid0.Coords, EltTy.bits .bf16 = 32 ∨ (Rect.block (s := S512x4096) S512x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S512x4096.size a
  hwx0_5 : ∀ i : grid0.Coords, EltTy.bits .bf16 = 32 ∨ (Rect.block (s := S512x4096) S512x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x512.size a ≤ S4096x512.size a
  hwx0_6 : ∀ i : grid0.Coords, EltTy.bits .bf16 = 32 ∨ (Rect.block (s := S4096x512) S4096x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S32768x512.size a
  hwx0_8 : ∀ i : grid0.Coords, EltTy.bits .f32 = 32 ∨ (Rect.block (s := S32768x512) S128x512.size (cc0_transform_8 i) (hinb0_8 i)).WholeWords (EltTy.packing .f32)

variable [Facts₀]

def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf
def dot_S128x8x512_S128x8x512_S128x8x8_2_2_1_1_0_0 : DotDims S128x8x512 S128x8x512 S128x8x8 where
  lhsContracting := [2]
  rhsContracting := [2]
  lhsNonContracting := [1]
  rhsNonContracting := [1]
  lhsBatch := [0]
  rhsBatch := [0]
  wf := dot_S128x8x512_S128x8x512_S128x8x8_2_2_1_1_0_0_wf
def dot_S128x8x8_S128x8x512_S128x8x512_2_1_1_2_0_0 : DotDims S128x8x8 S128x8x512 S128x8x512 where
  lhsContracting := [2]
  rhsContracting := [1]
  lhsNonContracting := [1]
  rhsNonContracting := [2]
  lhsBatch := [0]
  rhsBatch := [0]
  wf := dot_S128x8x8_S128x8x512_S128x8x512_2_1_1_2_0_0_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S4096x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S128x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x4096 : Shape := ⟨2, ![512, 4096]⟩
abbrev S4096x512 : Shape := ⟨2, ![4096, 512]⟩
abbrev S512 : Shape := ⟨1, ![512]⟩
abbrev S32768x4096 : Shape := ⟨2, ![32768, 4096]⟩
abbrev S32768x8x512 : Shape := ⟨3, ![32768, 8, 512]⟩
abbrev S32768x8x8 : Shape := ⟨3, ![32768, 8, 8]⟩
abbrev S_ : Shape := ⟨0, ![]⟩
abbrev S32768x8 : Shape := ⟨2, ![32768, 8]⟩
abbrev S32768x8x1 : Shape := ⟨3, ![32768, 8, 1]⟩
abbrev S1x512 : Shape := ⟨2, ![1, 512]⟩

abbrev nBuf : Space → Nat
  | .hbm => 35
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S4096x512, .f32⟩
  | .hbm, ⟨7, _⟩ => ⟨S512, .f32⟩
  | .hbm, ⟨8, _⟩ => ⟨S32768x4096, .f32⟩
  | .hbm, ⟨9, _⟩ => ⟨S32768x8x512, .f32⟩
  | .hbm, ⟨10, _⟩ => ⟨S32768x4096, .f32⟩
  | .hbm, ⟨11, _⟩ => ⟨S32768x8x512, .f32⟩
  | .hbm, ⟨12, _⟩ => ⟨S32768x4096, .f32⟩
  | .hbm, ⟨13, _⟩ => ⟨S32768x8x512, .f32⟩
  | .hbm, ⟨14, _⟩ => ⟨S32768x8x8, .f32⟩
  | .hbm, ⟨15, _⟩ => ⟨S_, .f32⟩
  | .hbm, ⟨16, _⟩ => ⟨S32768x8, .f32⟩
  | .hbm, ⟨17, _⟩ => ⟨S_, .f32⟩
  | .hbm, ⟨18, _⟩ => ⟨S32768x8, .f32⟩
  | .hbm, ⟨19, _⟩ => ⟨S32768x8, .f32⟩
  | .hbm, ⟨20, _⟩ => ⟨S32768x8x1, .f32⟩
  | .hbm, ⟨21, _⟩ => ⟨S32768x8x8, .f32⟩
  | .hbm, ⟨22, _⟩ => ⟨S32768x8x8, .f32⟩
  | .hbm, ⟨23, _⟩ => ⟨S32768x8x8, .f32⟩
  | .hbm, ⟨24, _⟩ => ⟨S_, .f32⟩
  | .hbm, ⟨25, _⟩ => ⟨S32768x8, .f32⟩
  | .hbm, ⟨26, _⟩ => ⟨S32768x8x1, .f32⟩
  | .hbm, ⟨27, _⟩ => ⟨S32768x8x8, .f32⟩
  | .hbm, ⟨28, _⟩ => ⟨S32768x8x8, .f32⟩
  | .hbm, ⟨29, _⟩ => ⟨S32768x8x512, .f32⟩
  | .hbm, ⟨30, _⟩ => ⟨S32768x4096, .f32⟩
  | .hbm, ⟨31, _⟩ => ⟨S32768x512, .f32⟩
  | .hbm, ⟨32, _⟩ => ⟨S1x512, .f32⟩
  | .hbm, ⟨33, _⟩ => ⟨S32768x512, .f32⟩
  | .hbm, ⟨34, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  shapeCasts_S32768x4096_S32768x8x512 : S32768x4096.ShapeCasts S32768x8x512
  reducesTo_S32768x8x8_S32768x8_d2 : S32768x8x8.ReducesTo [2] S32768x8
  h_S_ : 0 < S_.numel
  bcast_S_S32768x8 : S_.BroadcastsInDim S32768x8 (![] : Fin 0 → Fin S32768x8.rank)
  bcast_S32768x8_S32768x8x1_0_1 : S32768x8.BroadcastsInDim S32768x8x1 (![0, 1] : Fin 2 → Fin S32768x8x1.rank)
  bcast_S32768x8x1_S32768x8x8_0_1_2 : S32768x8x1.BroadcastsInDim S32768x8x8 (![0, 1, 2] : Fin 3 → Fin S32768x8x8.rank)
  shapeCasts_S32768x8x512_S32768x4096 : S32768x8x512.ShapeCasts S32768x4096
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x512_S512x4096_S32768x4096_1_0_0_1_n_n_wf : DotDims.WF S32768x512 S512x4096 S32768x4096 [1] [0] [0] [1] [] []
  dot_S32768x8x512_S32768x8x512_S32768x8x8_2_2_1_1_0_0_wf : DotDims.WF S32768x8x512 S32768x8x512 S32768x8x8 [2] [2] [1] [1] [0] [0]
  dot_S32768x8x8_S32768x8x512_S32768x8x512_2_1_1_2_0_0_wf : DotDims.WF S32768x8x8 S32768x8x512 S32768x8x512 [2] [1] [1] [2] [0] [0]
  dot_S32768x4096_S4096x512_S32768x512_1_0_0_1_n_n_wf : DotDims.WF S32768x4096 S4096x512 S32768x512 [1] [0] [0] [1] [] []

variable [Facts₀]

def dot_S32768x512_S512x4096_S32768x4096_1_0_0_1_n_n : DotDims S32768x512 S512x4096 S32768x4096 where
  lhsContracting := [1]
  rhsContracting := [0]
  lhsNonContracting := [0]
  rhsNonContracting := [1]
  lhsBatch := []
  rhsBatch := []
  wf := dot_S32768x512_S512x4096_S32768x4096_1_0_0_1_n_n_wf
def dot_S32768x8x512_S32768x8x512_S32768x8x8_2_2_1_1_0_0 : DotDims S32768x8x512 S32768x8x512 S32768x8x8 where
  lhsContracting := [2]
  rhsContracting := [2]
  lhsNonContracting := [1]
  rhsNonContracting := [1]
  lhsBatch := [0]
  rhsBatch := [0]
  wf := dot_S32768x8x512_S32768x8x512_S32768x8x8_2_2_1_1_0_0_wf
def dot_S32768x8x8_S32768x8x512_S32768x8x512_2_1_1_2_0_0 : DotDims S32768x8x8 S32768x8x512 S32768x8x512 where
  lhsContracting := [2]
  rhsContracting := [1]
  lhsNonContracting := [1]
  rhsNonContracting := [2]
  lhsBatch := [0]
  rhsBatch := [0]
  wf := dot_S32768x8x8_S32768x8x512_S32768x8x512_2_1_1_2_0_0_wf
def dot_S32768x4096_S4096x512_S32768x512_1_0_0_1_n_n : DotDims S32768x4096 S4096x512 S32768x512 where
  lhsContracting := [1]
  rhsContracting := [0]
  lhsNonContracting := [0]
  rhsNonContracting := [1]
  lhsBatch := []
  rhsBatch := []
  wf := dot_S32768x4096_S4096x512_S32768x512_1_0_0_1_n_n_wf

class Facts : Prop extends Facts₀ where

variable [Facts]
-- ==== Proof.Spec.lean ====
/-
  Attention of one token across its eight heads, as a function of the token's three input rows, over the extended reals.

  A token has a query row, a key row and a value row of 512 entries each. Each is projected by a 512 × 4096 matrix to a
  flat row of 8 · 512 entries, read as eight heads of 512 features: entry (h, d) sits at position h · 512 + d. The score
  of heads (h, g) is the inner product, over the 512 features, of head h of the projected query with head g of the
  projected key. Each row of the 8 × 8 score matrix is turned into weights by the shifted exponential form
  exp (s − max) / Σ exp (s − max), the maximum taken from −∞ over the eight scores. Head h of the result is the
  weighted sum over g of head g of the projected value; the eight heads laid flat again are projected back to 512
  entries by a 4096 × 512 matrix, and a bias row is added.

  Every step acts inside one token, so the whole array's row n is this function of rows n of the three inputs
  (`wholeArray`), and a tile of consecutive tokens computes the same rows.
-/
import Idealize.ShloMosaic.PureOps.Ideal
import Idealize.ShloMosaic.Lib.ValueIdx

noncomputable section

open scoped BigOperators

namespace Cert.HeadAttention

open Idealize.ShloMosaic Idealize.ShloMosaic.ValueIdx

/-- The flat position of feature `d` of head `h`. -/
def flat (h : Fin 8) (d : Fin 512) : Fin 4096 := ⟨h.val * 512 + d.val, by have := h.isLt; have := d.isLt; omega⟩

/-- The head a flat position belongs to, -/
def headOf (c : Fin 4096) : Fin 8 := ⟨c.val / 512, by have := c.isLt; omega⟩

/-- and its feature inside that head. -/
def featOf (c : Fin 4096) : Fin 512 := ⟨c.val % 512, Nat.mod_lt _ (by decide)⟩

theorem flat_headOf_featOf (c : Fin 4096) : flat (headOf c) (featOf c) = c :=
  Fin.ext (by show c.val / 512 * 512 + c.val % 512 = c.val; omega)

theorem headOf_flat (h : Fin 8) (d : Fin 512) : headOf (flat h d) = h :=
  Fin.ext (by show (h.val * 512 + d.val) / 512 = h.val; have := d.isLt; omega)

theorem featOf_flat (h : Fin 8) (d : Fin 512) : featOf (flat h d) = d :=
  Fin.ext (by show (h.val * 512 + d.val) % 512 = d.val; have := d.isLt; omega)

/-- A row projected by a matrix: entry `c` is the sum over `k` of `x k · W k c`. -/
def proj (x : Fin 512 → EReal) (W : Fin 512 → Fin 4096 → EReal) (c : Fin 4096) : EReal :=
  ∑ k : Fin 512, x k * W k c

/-- The score of heads `(h, g)`: the inner product of head `h` of `Q` with head `g` of `K`. -/
def scores (Q K : Fin 4096 → EReal) (h g : Fin 8) : EReal :=
  ∑ d : Fin 512, Q (flat h d) * K (flat g d)

/-- The value the running maximum starts from: the word of −∞. It is never evaluated; both programs carry the same word. -/
def bottom : EReal := Ideal.ofBits .f32 0xFF800000#32

/-- The maximum of a row of scores, from `bottom`. -/
def rowMax (s : Fin 8 → Fin 8 → EReal) (h : Fin 8) : EReal :=
  max bottom ((Finset.univ : Finset (Fin 8)).fold max bottom (s h))

/-- The shifted exponential of a score. -/
def shifted (s : Fin 8 → Fin 8 → EReal) (h g : Fin 8) : EReal := Ideal.exp (s h g - rowMax s h)

/-- The weight of head `g` for head `h`: the shifted exponential over the row's sum of them. -/
def weights (s : Fin 8 → Fin 8 → EReal) (h g : Fin 8) : EReal :=
  Ideal.div (shifted s h g) (∑ g' : Fin 8, shifted s h g')

/-- The mixed heads, flat: position `c = (h, d)` holds the sum over `g` of weight `(h, g)` times feature `d` of head `g` of `V`. -/
def mixed (Q K V : Fin 4096 → EReal) (c : Fin 4096) : EReal :=
  ∑ g : Fin 8, weights (scores Q K) (headOf c) g * V (flat g (featOf c))

/-- One token's result row. -/
def tokenRow (q k v : Fin 512 → EReal) (Wq Wk Wv : Fin 512 → Fin 4096 → EReal) (Wo : Fin 4096 → Fin 512 → EReal)
    (b : Fin 512 → EReal) (j : Fin 512) : EReal :=
  (∑ c : Fin 4096, mixed (proj q Wq) (proj k Wk) (proj v Wv) c * Wo c j) + b j

/-- The whole result array: row `n` is `tokenRow` of rows `n` of the three inputs. -/
def wholeArray (X0 X1 X2 : FVec Ideal ⟨2, ![32768, 512]⟩ .f32) (W3 W4 W5 : FVec Ideal ⟨2, ![512, 4096]⟩ .f32)
    (W6 : FVec Ideal ⟨2, ![4096, 512]⟩ .f32) (B : FVec Ideal ⟨1, ![512]⟩ .f32) : FVec Ideal ⟨2, ![32768, 512]⟩ .f32 :=
  fun i => tokenRow (fun k => X0 (ix2 (i 0) k)) (fun k => X1 (ix2 (i 0) k)) (fun k => X2 (ix2 (i 0) k))
    (fun k c => W3 (ix2 k c)) (fun k c => W4 (ix2 k c)) (fun k c => W5 (ix2 k c)) (fun c j => W6 (ix2 c j))
    (fun j => B (ix1 j)) (i 1)

theorem wholeArray_apply (X0 X1 X2 : FVec Ideal ⟨2, ![32768, 512]⟩ .f32) (W3 W4 W5 : FVec Ideal ⟨2, ![512, 4096]⟩ .f32)
    (W6 : FVec Ideal ⟨2, ![4096, 512]⟩ .f32) (B : FVec Ideal ⟨1, ![512]⟩ .f32) (n : Fin 32768) (j : Fin 512) :
    wholeArray X0 X1 X2 W3 W4 W5 W6 B (ix2 n j)
      = tokenRow (fun k => X0 (ix2 n k)) (fun k => X1 (ix2 n k)) (fun k => X2 (ix2 n k))
          (fun k c => W3 (ix2 k c)) (fun k c => W4 (ix2 k c)) (fun k c => W5 (ix2 k c)) (fun c j => W6 (ix2 c j))
          (fun j => B (ix1 j)) j := rfl

end Cert.HeadAttention

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.LibRank3Keepdims.lean ====
/-
  A rank-3 tile [a, b, c] reduced along its LAST axis with the axis kept (`jnp.sum(x, axis=-1, keepdims=True)`), read at an
  index written by coordinates: the pieces such a reduction is lowered to, one lemma each.

    • the lane sum [a, b, c] → [a, b] at (i, j) is the plain sum over k of the operand at (i, j, k), at the ideal values
      (`laneSum_apply`);
    • the cast that gives the sum its trailing unit axis back, [a, b] → [a, b, 1], reads (i, j, u) at (i, j)
      (`shapeCast_ab_ab1_apply`), and the cast that drops it, [a, b, 1] → [a, b], reads (i, j) at (i, j, 0)
      (`shapeCast_ab1_ab_apply`): row-major positions do not see an axis of extent one;
    • a column [a, b, 1] broadcast along the last axis to [a, b, c] reads (i, j, k) at (i, j, 0)
      (`broadcastTo_ab1_abc_apply`).
  All extents are generic; the indices are the literal-coordinate constructors `ix2` / `ix3`, so a lemma applies to a printed
  operation by unification.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Rank3Keepdims

open Idealize.ShloMosaic Idealize.ShloMosaic.ValueIdx

variable {α : Type}

/-- The sum along the last axis of an `[a, b, c]` tile, at the ideal values, read at `(i, j)`: the sum over `k` of the
    operand at `(i, j, k)`. The accumulator word and the two side conditions are whatever the printed operation carries. -/
theorem laneSum_apply {a b c : ℕ} {φ : FTy} (v : FVec Ideal (⟨3, ![a, b, c]⟩ : Shape) φ) (acc : BitVec φ.bits)
    (h : (⟨3, ![a, b, c]⟩ : Shape).Reduces [(2 : Fin 3)] ⟨2, ![a, b]⟩) (hφ : FKind.Formats φ) (hacc : acc = FKind.add.neutral φ hφ)
    (i : Fin a) (j : Fin b) :
    multiReduction (F := Ideal) .add [(2 : Fin 3)] ⟨2, ![a, b]⟩ v acc h hφ hacc (ix2 i j) = ∑ k : Fin c, v (ix3 i j k) := by
  refine (Ideal.multiReduction_add_single v acc h hφ hacc (ix2 i j)).trans ?_
  refine Finset.sum_congr rfl fun k _ => congrArg v ?_
  exact funext fun ax => Fin.ext (by match ax with | ⟨0, _⟩ => rfl | ⟨1, _⟩ => rfl | ⟨2, _⟩ => rfl)

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, 1]` column broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Rank3Keepdims

end
-- ==== Proof.TileValue.lean ====
/-
  What the kernel's body stores for one tile of 128 consecutive tokens, read at an entry.

  The body's stored value is restated as a composition of five pieces, each a tile-sized array, and each piece is read
  at an entry written by coordinates:
    • a projected input tile, cut into heads: entry (p, h, d) is the sum over k of x (p, k) · W (k, h · 512 + d);
    • the score tile: entry (p, h, g) is the sum over d of Q (p, h, d) · K (p, g, d);
    • the weight tile: the shifted exponential form along the last axis, the maximum taken from −∞;
    • the mixed heads laid flat: entry (p, c) is the sum over g of weight (p, head of c, g) · V (p, g, feature of c);
    • the output tile: the flat row times the output matrix, plus the bias row.
  Every entry of row p depends only on rows p of the three input tiles, and is `tokenRow` of them.
  Changes of float format are the identity on the extended reals.
-/
import proofs.«148500_j58875411694307_1_alg».proof.Proof.Gen.KernelIdeal.Skeleton
import proofs.«148500_j58875411694307_1_alg».proof.Proof.Spec
import proofs.«148500_j58875411694307_1_alg».proof.Proof.LibPlainProduct
import proofs.«148500_j58875411694307_1_alg».proof.Proof.LibRank3Keepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.TileValue

open Cert.KernelIdeal Cert.KernelIdeal.Gen Idealize.ShloMosaic Idealize.ShloMosaic.ValueIdx Cert.HeadAttention

/-! ## The layout steps between flat rows and heads -/

/-- A flat tile [128, 4096] read as heads [128, 8, 512]: entry (p, h, d) is the flat entry (p, h · 512 + d). -/
theorem heads_apply {α : Type} (y : S128x4096.Idx → α) (p : Fin 128) (h : Fin 8) (d : Fin 512) :
    shapeCast S128x8x512 y shapeCasts_S128x4096_S128x8x512 (ix3 p h d) = y (ix2 p (flat h d)) :=
  shapeCast_apply y shapeCasts_S128x4096_S128x8x512 _ _ (by
    rw [Shape.rowMajor_val_two, Shape.rowMajor_val_three]
    show p.val * 4096 + (h.val * 512 + d.val) = (p.val * 8 + h.val) * 512 + d.val
    omega)

/-- Heads [128, 8, 512] laid flat again [128, 4096]: entry (p, c) is entry (p, head of c, feature of c). -/
theorem flatten_apply {α : Type} (y : S128x8x512.Idx → α) (p : Fin 128) (c : Fin 4096) :
    shapeCast S128x4096 y shapeCasts_S128x8x512_S128x4096 (ix2 p c) = y (ix3 p (headOf c) (featOf c)) :=
  shapeCast_apply y shapeCasts_S128x8x512_S128x4096 _ _ (by
    rw [Shape.rowMajor_val_two, Shape.rowMajor_val_three]
    show (p.val * 8 + c.val / 512) * 512 + c.val % 512 = p.val * 4096 + c.val
    omega)

/-! ## The projections -/

/-- A tile of input rows projected by a 512 × 4096 matrix and cut into heads. -/
def projTile (x : Vec Ideal S128x512 .f32) (w : Vec Ideal S512x4096 .bf16) : FVec Ideal S128x8x512 .bf16 :=
  truncf .bf16 (shapeCast S128x8x512
    (matmul dot_S128x512_S512x4096_S128x4096_1_0_0_1_n_n none (truncf .bf16 x bitsLt_bf16_f32)
      (shapeCast S512x4096 w shapeCasts_S512x4096_S512x4096 : FVec Ideal S512x4096 .bf16) (constant S128x4096 .f32 0x00000000#32))
    shapeCasts_S128x4096_S128x8x512) bitsLt_bf16_f32

theorem projTile_apply (x : Vec Ideal S128x512 .f32) (w : Vec Ideal S512x4096 .bf16) (p : Fin 128) (h : Fin 8) (d : Fin 512) :
    projTile x w (ix3 p h d) = proj (fun k => x (ix2 p k)) (fun k c => w (ix2 k c)) (flat h d) := by
  unfold projTile
  rw [truncf_apply, heads_apply, shapeCast_self]
  exact Cert.PlainProduct.matmul_zero_apply (M := 128) (K := 512) (N := 4096) none
    (truncf .bf16 x bitsLt_bf16_f32) w p (flat h d)

/-! ## The scores: a product batched over the tokens, contracting the features -/

theorem lhs_scores_0 (i : S128x8x8.Idx) (q : dot_S128x8x512_S128x8x512_S128x8x8_2_2_1_1_0_0.contr.Idx) :
    (dot_S128x8x512_S128x8x512_S128x8x8_2_2_1_1_0_0.lhsIdx i q 0).val = (i 0).val := by
  unfold DotDims.lhsIdx
  rw [dif_pos (show (0 : Fin S128x8x512.rank) ∈ dot_S128x8x512_S128x8x512_S128x8x8_2_2_1_1_0_0.lhsBatch by decide)]
  rfl
theorem lhs_scores_1 (i : S128x8x8.Idx) (q : dot_S128x8x512_S128x8x512_S128x8x8_2_2_1_1_0_0.contr.Idx) :
    (dot_S128x8x512_S128x8x512_S128x8x8_2_2_1_1_0_0.lhsIdx i q 1).val = (i 1).val := by
  unfold DotDims.lhsIdx
  rw [dif_neg (show ¬(1 : Fin S128x8x512.rank) ∈ dot_S128x8x512_S128x8x512_S128x8x8_2_2_1_1_0_0.lhsBatch by decide),
    dif_pos (show (1 : Fin S128x8x512.rank) ∈ dot_S128x8x512_S128x8x512_S128x8x8_2_2_1_1_0_0.lhsNonContracting by decide)]
  rfl
theorem lhs_scores_2 (i : S128x8x8.Idx) (q : dot_S128x8x512_S128x8x512_S128x8x8_2_2_1_1_0_0.contr.Idx) :
    (dot_S128x8x512_S128x8x512_S128x8x8_2_2_1_1_0_0.lhsIdx i q 2).val = (q ⟨0, by decide⟩).val :=
  dot_S128x8x512_S128x8x512_S128x8x8_2_2_1_1_0_0.lhsIdx_val_of_single rfl i q
theorem rhs_scores_0 (i : S128x8x8.Idx) (q : dot_S128x8x512_S128x8x512_S128x8x8_2_2_1_1_0_0.contr.Idx) :
    (dot_S128x8x512_S128x8x512_S128x8x8_2_2_1_1_0_0.rhsIdx i q 0).val = (i 0).val := by
  unfold DotDims.rhsIdx
  rw [dif_pos (show (0 : Fin S128x8x512.rank) ∈ dot_S128x8x512_S128x8x512_S128x8x8_2_2_1_1_0_0.rhsBatch by decide)]
  rfl
theorem rhs_scores_1 (i : S128x8x8.Idx) (q : dot_S128x8x512_S128x8x512_S128x8x8_2_2_1_1_0_0.contr.Idx) :
    (dot_S128x8x512_S128x8x512_S128x8x8_2_2_1_1_0_0.rhsIdx i q 1).val = (i 2).val := by
  unfold DotDims.rhsIdx
  rw [dif_neg (show ¬(1 : Fin S128x8x512.rank) ∈ dot_S128x8x512_S128x8x512_S128x8x8_2_2_1_1_0_0.rhsBatch by decide),
    dif_pos (show (1 : Fin S128x8x512.rank) ∈ dot_S128x8x512_S128x8x512_S128x8x8_2_2_1_1_0_0.rhsNonContracting by decide)]
  rfl
theorem rhs_scores_2 (i : S128x8x8.Idx) (q : dot_S128x8x512_S128x8x512_S128x8x8_2_2_1_1_0_0.contr.Idx) :
    (dot_S128x8x512_S128x8x512_S128x8x8_2_2_1_1_0_0.rhsIdx i q 2).val = (q ⟨0, by decide⟩).val :=
  dot_S128x8x512_S128x8x512_S128x8x8_2_2_1_1_0_0.rhsIdx_val_of_single rfl i q

/-- The score tile of two head-shaped tiles. -/
def scoreTile (a b : FVec Ideal S128x8x512 .bf16) : FVec Ideal S128x8x8 .f32 :=
  matmul dot_S128x8x512_S128x8x512_S128x8x8_2_2_1_1_0_0 none a b (constant S128x8x8 .f32 0x00000000#32)

/-- Entry (p, h, g) of the score tile: the inner product over the features of head h of `a` and head g of `b`, token p. -/
theorem scoreTile_apply (a b : FVec Ideal S128x8x512 .bf16) (p : Fin 128) (h g : Fin 8) :
    scoreTile a b (ix3 p h g) = ∑ d : Fin 512, a (ix3 p h d) * b (ix3 p g d) := by
  unfold scoreTile
  refine (Ideal.matmul_constant_zero_apply dot_S128x8x512_S128x8x512_S128x8x8_2_2_1_1_0_0 none a b (ix3 p h g)).trans ?_
  rw [← Equiv.sum_comp (contrEquiv1 dot_S128x8x512_S128x8x512_S128x8x8_2_2_1_1_0_0 512 rfl rfl).symm]
  refine Finset.sum_congr rfl fun k _ => ?_
  have hk := contrEquiv1_symm_val dot_S128x8x512_S128x8x512_S128x8x8_2_2_1_1_0_0 512 rfl rfl k
  have el : dot_S128x8x512_S128x8x512_S128x8x8_2_2_1_1_0_0.lhsIdx (ix3 p h g)
      ((contrEquiv1 dot_S128x8x512_S128x8x512_S128x8x8_2_2_1_1_0_0 512 rfl rfl).symm k) = ix3 p h k :=
    funext fun ax => Fin.ext (by
      match ax with
      | ⟨0, _⟩ => exact lhs_scores_0 _ _
      | ⟨1, _⟩ => exact lhs_scores_1 _ _
      | ⟨2, _⟩ => exact (lhs_scores_2 _ _).trans hk)
  have er : dot_S128x8x512_S128x8x512_S128x8x8_2_2_1_1_0_0.rhsIdx (ix3 p h g)
      ((contrEquiv1 dot_S128x8x512_S128x8x512_S128x8x8_2_2_1_1_0_0 512 rfl rfl).symm k) = ix3 p g k :=
    funext fun ax => Fin.ext (by
      match ax with
      | ⟨0, _⟩ => exact rhs_scores_0 _ _
      | ⟨1, _⟩ => exact rhs_scores_1 _ _
      | ⟨2, _⟩ => exact (rhs_scores_2 _ _).trans hk)
  rw [el, er]

/-! ## Mixing the value heads: a product batched over the tokens, contracting the heads -/

theorem lhs_mix_0 (i : S128x8x512.Idx) (q : dot_S128x8x8_S128x8x512_S128x8x512_2_1_1_2_0_0.contr.Idx) :
    (dot_S128x8x8_S128x8x512_S128x8x512_2_1_1_2_0_0.lhsIdx i q 0).val = (i 0).val := by
  unfold DotDims.lhsIdx
  rw [dif_pos (show (0 : Fin S128x8x8.rank) ∈ dot_S128x8x8_S128x8x512_S128x8x512_2_1_1_2_0_0.lhsBatch by decide)]
  rfl
theorem lhs_mix_1 (i : S128x8x512.Idx) (q : dot_S128x8x8_S128x8x512_S128x8x512_2_1_1_2_0_0.contr.Idx) :
    (dot_S128x8x8_S128x8x512_S128x8x512_2_1_1_2_0_0.lhsIdx i q 1).val = (i 1).val := by
  unfold DotDims.lhsIdx
  rw [dif_neg (show ¬(1 : Fin S128x8x8.rank) ∈ dot_S128x8x8_S128x8x512_S128x8x512_2_1_1_2_0_0.lhsBatch by decide),
    dif_pos (show (1 : Fin S128x8x8.rank) ∈ dot_S128x8x8_S128x8x512_S128x8x512_2_1_1_2_0_0.lhsNonContracting by decide)]
  rfl
theorem lhs_mix_2 (i : S128x8x512.Idx) (q : dot_S128x8x8_S128x8x512_S128x8x512_2_1_1_2_0_0.contr.Idx) :
    (dot_S128x8x8_S128x8x512_S128x8x512_2_1_1_2_0_0.lhsIdx i q 2).val = (q ⟨0, by decide⟩).val :=
  dot_S128x8x8_S128x8x512_S128x8x512_2_1_1_2_0_0.lhsIdx_val_of_single rfl i q
theorem rhs_mix_0 (i : S128x8x512.Idx) (q : dot_S128x8x8_S128x8x512_S128x8x512_2_1_1_2_0_0.contr.Idx) :
    (dot_S128x8x8_S128x8x512_S128x8x512_2_1_1_2_0_0.rhsIdx i q 0).val = (i 0).val := by
  unfold DotDims.rhsIdx
  rw [dif_pos (show (0 : Fin S128x8x512.rank) ∈ dot_S128x8x8_S128x8x512_S128x8x512_2_1_1_2_0_0.rhsBatch by decide)]
  rfl
theorem rhs_mix_1 (i : S128x8x512.Idx) (q : dot_S128x8x8_S128x8x512_S128x8x512_2_1_1_2_0_0.contr.Idx) :
    (dot_S128x8x8_S128x8x512_S128x8x512_2_1_1_2_0_0.rhsIdx i q 1).val = (q ⟨0, by decide⟩).val :=
  dot_S128x8x8_S128x8x512_S128x8x512_2_1_1_2_0_0.rhsIdx_val_of_single rfl i q
theorem rhs_mix_2 (i : S128x8x512.Idx) (q : dot_S128x8x8_S128x8x512_S128x8x512_2_1_1_2_0_0.contr.Idx) :
    (dot_S128x8x8_S128x8x512_S128x8x512_2_1_1_2_0_0.rhsIdx i q 2).val = (i 2).val := by
  unfold DotDims.rhsIdx
  rw [dif_neg (show ¬(2 : Fin S128x8x512.rank) ∈ dot_S128x8x8_S128x8x512_S128x8x512_2_1_1_2_0_0.rhsBatch by decide),
    dif_pos (show (2 : Fin S128x8x512.rank) ∈ dot_S128x8x8_S128x8x512_S128x8x512_2_1_1_2_0_0.rhsNonContracting by decide)]
  rfl

/-- The value heads mixed by a weight tile, laid flat. -/
def mixTile (a : FVec Ideal S128x8x8 .bf16) (v : FVec Ideal S128x8x512 .bf16) : FVec Ideal S128x4096 .bf16 :=
  truncf .bf16 (shapeCast S128x4096
    (matmul dot_S128x8x8_S128x8x512_S128x8x512_2_1_1_2_0_0 none a v (constant S128x8x512 .f32 0x00000000#32))
    shapeCasts_S128x8x512_S128x4096) bitsLt_bf16_f32

/-- Entry (p, c) of the mixed tile: the sum over g of weight (p, head of c, g) times `v` at (p, g, feature of c). -/
theorem mixTile_apply (a : FVec Ideal S128x8x8 .bf16) (v : FVec Ideal S128x8x512 .bf16) (p : Fin 128) (c : Fin 4096) :
    mixTile a v (ix2 p c) = ∑ g : Fin 8, a (ix3 p (headOf c) g) * v (ix3 p g (featOf c)) := by
  unfold mixTile
  rw [truncf_apply, flatten_apply]
  refine (Ideal.matmul_constant_zero_apply dot_S128x8x8_S128x8x512_S128x8x512_2_1_1_2_0_0 none a v
    (ix3 p (headOf c) (featOf c))).trans ?_
  rw [← Equiv.sum_comp (contrEquiv1 dot_S128x8x8_S128x8x512_S128x8x512_2_1_1_2_0_0 8 rfl rfl).symm]
  refine Finset.sum_congr rfl fun k _ => ?_
  have hk := contrEquiv1_symm_val dot_S128x8x8_S128x8x512_S128x8x512_2_1_1_2_0_0 8 rfl rfl k
  have el : dot_S128x8x8_S128x8x512_S128x8x512_2_1_1_2_0_0.lhsIdx (ix3 p (headOf c) (featOf c))
      ((contrEquiv1 dot_S128x8x8_S128x8x512_S128x8x512_2_1_1_2_0_0 8 rfl rfl).symm k) = ix3 p (headOf c) k :=
    funext fun ax => Fin.ext (by
      match ax with
      | ⟨0, _⟩ => exact lhs_mix_0 _ _
      | ⟨1, _⟩ => exact lhs_mix_1 _ _
      | ⟨2, _⟩ => exact (lhs_mix_2 _ _).trans hk)
  have er : dot_S128x8x8_S128x8x512_S128x8x512_2_1_1_2_0_0.rhsIdx (ix3 p (headOf c) (featOf c))
      ((contrEquiv1 dot_S128x8x8_S128x8x512_S128x8x512_2_1_1_2_0_0 8 rfl rfl).symm k) = ix3 p k (featOf c) :=
    funext fun ax => Fin.ext (by
      match ax with
      | ⟨0, _⟩ => exact rhs_mix_0 _ _
      | ⟨1, _⟩ => exact (rhs_mix_1 _ _).trans hk
      | ⟨2, _⟩ => exact rhs_mix_2 _ _)
  rw [el, er]

/-! ## The weights: the shifted exponential form along the last axis -/

/-- The row maxima of a score tile, taken from −∞. -/
def maxTile (s : FVec Ideal S128x8x8 .f32) : FVec Ideal S128x8 .f32 :=
  maximumf (broadcast S128x8 (Scalar.ofBits .f32 0xFF800000#32))
    (multiReduction .maximumf [2] S128x8 s 0xFF800000#32 reduces_S128x8x8_S128x8 (.inl rfl) rfl)

/-- Entry (p, h): the maximum of the eight scores of head h of token p. -/
theorem maxTile_apply (s : FVec Ideal S128x8x8 .f32) (p : Fin 128) (h : Fin 8) :
    maxTile s (ix2 p h) = rowMax (fun h g => s (ix3 p h g)) h := by
  unfold maxTile rowMax bottom
  show max (Ideal.ofBits .f32 0xFF800000#32)
      (multiReduction (F := Ideal) .maximumf [2] S128x8 s 0xFF800000#32 reduces_S128x8x8_S128x8 (.inl rfl) rfl (ix2 p h)) = _
  refine congrArg (max (Ideal.ofBits .f32 0xFF800000#32)) ?_
  refine (Ideal.multiReduction_maximumf_single s 0xFF800000#32 reduces_S128x8x8_S128x8 (.inl rfl) rfl (ix2 p h)).trans ?_
  refine congrArg (fun f : Fin 8 → EReal => (Finset.univ : Finset (Fin 8)).fold max (Ideal.ofBits .f32 0xFF800000#32) f) ?_
  exact funext fun g => congrArg s (funext fun ax => Fin.ext (by
    match ax with | ⟨0, _⟩ => rfl | ⟨1, _⟩ => rfl | ⟨2, _⟩ => rfl))

/-- The exponentials of the scores less their row's maximum. -/
def expTile (s : FVec Ideal S128x8x8 .f32) : FVec Ideal S128x8x8 .f32 :=
  exp (subf s (broadcastTo S128x8x8
    (shapeCast S128x8x1 (maxTile s) shapeCasts_S128x8_S128x8x1 : FVec Ideal S128x8x1 .f32) broadcasts_S128x8x1_S128x8x8))

theorem expTile_apply (s : FVec Ideal S128x8x8 .f32) (p : Fin 128) (h g : Fin 8) :
    expTile s (ix3 p h g) = shifted (fun h g => s (ix3 p h g)) h g := by
  unfold expTile shifted
  show Ideal.exp (s (ix3 p h g) - broadcastTo S128x8x8
    (shapeCast S128x8x1 (maxTile s) shapeCasts_S128x8_S128x8x1 : FVec Ideal S128x8x1 .f32) broadcasts_S128x8x1_S128x8x8 (ix3 p h g)) = _
  rw [Cert.Rank3Keepdims.broadcastTo_ab1_abc_apply, Cert.Rank3Keepdims.shapeCast_ab_ab1_apply, maxTile_apply]

/-- The weight tile: each exponential over its row's sum of them. -/
def weightTile (s : FVec Ideal S128x8x8 .f32) : FVec Ideal S128x8x8 .bf16 :=
  truncf .bf16 (divf (expTile s) (broadcastTo S128x8x8
    (shapeCast S128x8x1
      (multiReduction .add [2] S128x8 (expTile s) 0x00000000#32 reduces_S128x8x8_S128x8 (.inl rfl) rfl : FVec Ideal S128x8 .f32)
      shapeCasts_S128x8_S128x8x1 : FVec Ideal S128x8x1 .f32) broadcasts_S128x8x1_S128x8x8)) bitsLt_bf16_f32

theorem weightTile_apply (s : FVec Ideal S128x8x8 .f32) (p : Fin 128) (h g : Fin 8) :
    weightTile s (ix3 p h g) = weights (fun h g => s (ix3 p h g)) h g := by
  unfold weightTile weights
  rw [truncf_apply, divf_apply, Cert.Rank3Keepdims.broadcastTo_ab1_abc_apply, Cert.Rank3Keepdims.shapeCast_ab_ab1_apply,
    expTile_apply]
  refine congrArg (Ideal.div _) ?_
  refine (Cert.Rank3Keepdims.laneSum_apply (expTile s) 0x00000000#32 reduces_S128x8x8_S128x8 (.inl rfl) rfl p h).trans ?_
  exact Finset.sum_congr rfl fun g' _ => expTile_apply s p h g'

/-! ## The body's stored value is the composition of the pieces -/

/-- The flat mixed tile the body forms before the output projection. -/
theorem mixedTile_eq (x0 x1 x2 : Vec Ideal S128x512 .f32) (w3 w4 w5 : Vec Ideal S512x4096 .bf16) :
    k0_pay2 (F := Ideal) x0 x1 x2 w3 w4 w5
      = mixTile (weightTile (scoreTile (projTile x0 w3) (projTile x1 w4))) (projTile x2 w5) := rfl

/-- Its entry (p, c) is the mixed heads of token p at flat position c. -/
theorem mixedTile_apply (x0 x1 x2 : Vec Ideal S128x512 .f32) (w3 w4 w5 : Vec Ideal S512x4096 .bf16) (p : Fin 128) (c : Fin 4096) :
    k0_pay2 (F := Ideal) x0 x1 x2 w3 w4 w5 (ix2 p c)
      = mixed (proj (fun k => x0 (ix2 p k)) (fun k c => w3 (ix2 k c))) (proj (fun k => x1 (ix2 p k)) (fun k c => w4 (ix2 k c)))
          (proj (fun k => x2 (ix2 p k)) (fun k c => w5 (ix2 k c))) c := by
  rw [mixedTile_eq, mixTile_apply]
  unfold mixed
  have hs : (fun h g => scoreTile (projTile x0 w3) (projTile x1 w4) (ix3 p h g))
      = scores (proj (fun k => x0 (ix2 p k)) (fun k c => w3 (ix2 k c))) (proj (fun k => x1 (ix2 p k)) (fun k c => w4 (ix2 k c))) :=
    funext fun h => funext fun g => by
      rw [scoreTile_apply]
      unfold scores
      exact Finset.sum_congr rfl fun d _ => by rw [projTile_apply, projTile_apply]
  refine Finset.sum_congr rfl fun g _ => ?_
  rw [weightTile_apply, projTile_apply, hs]

/-- The output projection and the bias: entry (p, j) is the sum over c of the flat row's entry c times the matrix's
    entry (c, j), plus the bias row's entry j. -/
theorem outTile_apply (y : FVec Ideal S128x4096 .bf16) (w6 : Vec Ideal S4096x512 .bf16) (b7 : Vec Ideal S1x512 .f32)
    (p : Fin 128) (j : Fin 512) :
    k0_pay1 (F := Ideal) y w6 b7 (ix2 p j) = (∑ c : Fin 4096, y (ix2 p c) * w6 (ix2 c j)) + b7 (ix2 (0 : Fin 1) j) := by
  unfold k0_pay1
  show matmul (F := Ideal) dot_S128x4096_S4096x512_S128x512_1_0_0_1_n_n none y
        (shapeCast S4096x512 w6 shapeCasts_S4096x512_S4096x512 : FVec Ideal S4096x512 .bf16)
        (constant S128x512 .f32 0x00000000#32) (ix2 p j)
      + broadcastTo S128x512 (shapeCast S1x512 b7 shapeCasts_S1x512_S1x512 : FVec Ideal S1x512 .f32)
          broadcasts_S1x512_S128x512 (ix2 p j) = _
  rw [shapeCast_self, shapeCast_self, broadcastTo_1b_ab_apply]
  exact congrArg (· + b7 (ix2 (0 : Fin 1) j))
    (Cert.PlainProduct.matmul_zero_apply (M := 128) (K := 4096) (N := 512) none y w6 p j)

/-- Entry `(p, j)` of the tile the body stores is token `p`'s result row at `j`: the function `tokenRow` of rows `p` of the
    three input tiles, the four weight matrices and the bias row. -/
theorem tile_apply (x0 x1 x2 : Vec Ideal S128x512 .f32) (w3 w4 w5 : Vec Ideal S512x4096 .bf16)
    (w6 : Vec Ideal S4096x512 .bf16) (b7 : Vec Ideal S1x512 .f32) (p : Fin 128) (j : Fin 512) :
    k0_pay1 (F := Ideal) (k0_pay2 (F := Ideal) x0 x1 x2 w3 w4 w5) w6 b7 (ix2 p j)
      = Cert.HeadAttention.tokenRow (fun k => x0 (ix2 p k)) (fun k => x1 (ix2 p k)) (fun k => x2 (ix2 p k))
          (fun k c => w3 (ix2 k c)) (fun k c => w4 (ix2 k c)) (fun k c => w5 (ix2 k c)) (fun c j' => w6 (ix2 c j'))
          (fun j' => b7 (ix2 (0 : Fin 1) j')) j := by
  rw [outTile_apply]
  unfold tokenRow
  refine congrArg (· + b7 (ix2 (0 : Fin 1) j)) (Finset.sum_congr rfl fun c _ => ?_)
  rw [mixedTile_apply]

end Cert.KernelIdeal.TileValue

end
-- ==== Proof.ArrayValue.lean ====
/-
  From the tiles to the whole array, over the extended reals.

  The grid has 256 points; point t works on the tile of tokens 128 · t … 128 · t + 127. The three token arrays and the
  result array are cut into blocks of 128 rows, block t at rows 128 · t onward, all 512 columns; the four weight
  matrices and the bias row are passed whole at every point. Before the region the weight matrices are converted to the
  narrower float format, which over the extended reals changes no entry, and the bias row of 512 entries is re-laid as
  a 1 × 512 array whose entry (0, j) is entry j.

  So entry (p, j) of what point t writes back is `tokenRow` of rows 128 · t + p of the three token arrays, of the four
  weight matrices and of the bias row: entry (128 · t + p, j) of `wholeArray`. Every row r of the result lies in the
  block of point r / 128, so after the run the result array is `wholeArray` of the eight arguments.
-/
import proofs.«148500_j58875411694307_1_alg».proof.Proof.Gen.KernelIdeal.Value
import proofs.«148500_j58875411694307_1_alg».proof.Proof.Spec
import proofs.«148500_j58875411694307_1_alg».proof.Proof.TileValue
import Idealize.ShloMosaic.Lib.Pipeline.Value
import Idealize.ShloMosaic.Lib.ValueIdx
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its one store are taken at offsets (0, 0): the constant zero function. -/
theorem zeroOffsets : (![0, 0] : Fin 2 → Nat) = fun _ => 0 := funext fun a => by fin_cases a <;> rfl

/-! ## The arrays the region finds where host operations wrote them -/

/-- The query projection the region finds is the fourth argument converted to the narrower format. -/
theorem queryWeights_entry (c : Dev nD) :
    (V m c main_v0 : S512x4096.Idx → Elt Ideal .bf16)
      = (truncf (F := Ideal) .bf16 (m ((c.tc : Thread nD τ).loc main_arg3) : FVec Ideal S512x4096 .f32) bitsLt_bf16_f32 : FVec Ideal S512x4096 .bf16) := by
  dsimp only [Gen.V, Gen.hostOps0]; after_results <;> rfl

/-- The key projection the region finds is the fifth argument converted to the narrower format. -/
theorem keyWeights_entry (c : Dev nD) :
    (V m c main_v1 : S512x4096.Idx → Elt Ideal .bf16)
      = (truncf (F := Ideal) .bf16 (m ((c.tc : Thread nD τ).loc main_arg4) : FVec Ideal S512x4096 .f32) bitsLt_bf16_f32 : FVec Ideal S512x4096 .bf16) := by
  dsimp only [Gen.V, Gen.hostOps0]; after_results <;> rfl

/-- The value projection the region finds is the sixth argument converted to the narrower format. -/
theorem valueWeights_entry (c : Dev nD) :
    (V m c main_v2 : S512x4096.Idx → Elt Ideal .bf16)
      = (truncf (F := Ideal) .bf16 (m ((c.tc : Thread nD τ).loc main_arg5) : FVec Ideal S512x4096 .f32) bitsLt_bf16_f32 : FVec Ideal S512x4096 .bf16) := by
  dsimp only [Gen.V, Gen.hostOps0]; after_results <;> rfl

/-- The output projection the region finds is the seventh argument converted to the narrower format. -/
theorem outWeights_entry (c : Dev nD) :
    (V m c main_v3 : S4096x512.Idx → Elt Ideal .bf16)
      = (truncf (F := Ideal) .bf16 (m ((c.tc : Thread nD τ).loc main_arg6) : FVec Ideal S4096x512 .f32) bitsLt_bf16_f32 : FVec Ideal S4096x512 .bf16) := by
  dsimp only [Gen.V, Gen.hostOps0]; after_results <;> rfl

/-- The bias row the region finds is the eighth argument, 512 entries, re-laid as a 1 × 512 array. -/
theorem bias_entry (c : Dev nD) :
    (V m c main_v4 : S1x512.Idx → Elt Ideal .f32)
      = shapeCast S1x512 (m ((c.tc : Thread nD τ).loc main_arg7) : S512.Idx → Elt Ideal .f32) shapeCasts_S512_S1x512 := by
  dsimp only [Gen.V, Gen.hostOps0]; after_results <;> rfl

/-! ## Where each window's block sits, decided over the 256 grid points -/

/-- The result's window and the three token windows have block index (t, 0) at point t. -/
theorem token_tiles : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The four weight windows and the bias window have block index (0, 0) at every point: the block is the array. -/
theorem whole_windows : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## One entry of a tile, over any blocks that agree with the arrays -/

open Cert.HeadAttention in
/-- If row p of the three token blocks is row n of the three token arrays, and the weight blocks and the bias block
    agree entry by entry with the weight arrays and the bias row, then entry (p, j) of the tile the body stores is
    entry (n, j) of the whole result: both are `tokenRow` of the same rows. -/
theorem tile_entry (x0 x1 x2 : Vec Ideal S128x512 .f32) (w3 w4 w5 : Vec Ideal S512x4096 .bf16)
    (w6 : Vec Ideal S4096x512 .bf16) (b7 : Vec Ideal S1x512 .f32)
    (X0 X1 X2 : FVec Ideal S32768x512 .f32) (W3 W4 W5 : FVec Ideal S512x4096 .f32)
    (W6 : FVec Ideal S4096x512 .f32) (B : FVec Ideal S512 .f32)
    (n : Fin 32768) (p : Fin 128) (j : Fin 512)
    (h0 : ∀ k : Fin 512, x0 (ix2 p k) = X0 (ix2 n k))
    (h1 : ∀ k : Fin 512, x1 (ix2 p k) = X1 (ix2 n k))
    (h2 : ∀ k : Fin 512, x2 (ix2 p k) = X2 (ix2 n k))
    (h3 : ∀ (k : Fin 512) (c : Fin 4096), (w3 (ix2 k c) : EReal) = W3 (ix2 k c))
    (h4 : ∀ (k : Fin 512) (c : Fin 4096), (w4 (ix2 k c) : EReal) = W4 (ix2 k c))
    (h5 : ∀ (k : Fin 512) (c : Fin 4096), (w5 (ix2 k c) : EReal) = W5 (ix2 k c))
    (h6 : ∀ (c : Fin 4096) (j' : Fin 512), (w6 (ix2 c j') : EReal) = W6 (ix2 c j'))
    (h7 : ∀ j' : Fin 512, b7 (ix2 (0 : Fin 1) j') = B (ix1 j')) :
    k0_pay1 (F := Ideal) (k0_pay2 (F := Ideal) x0 x1 x2 w3 w4 w5) w6 b7 (ix2 p j)
      = wholeArray X0 X1 X2 W3 W4 W5 W6 B (ix2 n j) := by
  rw [TileValue.tile_apply, wholeArray_apply,
    show (fun k => x0 (ix2 p k)) = (fun k => X0 (ix2 n k)) from funext h0,
    show (fun k => x1 (ix2 p k)) = (fun k => X1 (ix2 n k)) from funext h1,
    show (fun k => x2 (ix2 p k)) = (fun k => X2 (ix2 n k)) from funext h2,
    show (fun k c => (w3 (ix2 k c) : EReal)) = (fun k c => W3 (ix2 k c)) from funext fun k => funext (h3 k),
    show (fun k c => (w4 (ix2 k c) : EReal)) = (fun k c => W4 (ix2 k c)) from funext fun k => funext (h4 k),
    show (fun k c => (w5 (ix2 k c) : EReal)) = (fun k c => W5 (ix2 k c)) from funext fun k => funext (h5 k),
    show (fun c j' => (w6 (ix2 c j') : EReal)) = (fun c j' => W6 (ix2 c j')) from funext fun c => funext (h6 c),
    show (fun j' => b7 (ix2 (0 : Fin 1) j')) = (fun j' => B (ix1 j')) from funext h7]

/-! ## The blocks of the windows, read at an entry

A block's coordinate in its array is, on each axis, the block index times the block's extent plus the coordinate inside
the block. -/

/-- Entry (p, k) of the query block at point t is entry (128 · t + p, k) of the first argument. -/
theorem queries_block (c : Dev nD) (t : Fin cfg0.N) (p : Fin 128) (k : Fin 512) (n : Fin 32768)
    (hn : n.val = t.val * 128 + p.val) :
    (iblk m c 0 t : Vec Ideal S128x512 .f32) (ix2 p k)
      = (m ((c.tc : Thread nD τ).loc main_arg0) : S32768x512.Idx → Elt Ideal .f32) (ix2 n k) := by
  obtain ⟨-, -, e0, e1, -, -, -, -⟩ := token_tiles t
  show V m c main_arg0 (((cfg0.win 0).blk t).view.emb (ix2 p k)) = _
  rw [V_main_arg0]
  refine congrArg (m ((c.tc : Thread nD τ).loc main_arg0) : S32768x512.Idx → Elt Ideal .f32) (funext fun a => Fin.ext ?_)
  match a with
  | ⟨0, _⟩ => show win0_0.index t (0 : Fin 2) * 128 + 1 * p.val = n.val; rw [e0, hn]; omega
  | ⟨1, _⟩ => show win0_0.index t (1 : Fin 2) * 512 + 1 * k.val = k.val; rw [e1]; omega

/-- Entry (p, k) of the key block at point t is entry (128 · t + p, k) of the second argument. -/
theorem keys_block (c : Dev nD) (t : Fin cfg0.N) (p : Fin 128) (k : Fin 512) (n : Fin 32768)
    (hn : n.val = t.val * 128 + p.val) :
    (iblk m c 1 t : Vec Ideal S128x512 .f32) (ix2 p k)
      = (m ((c.tc : Thread nD τ).loc main_arg1) : S32768x512.Idx → Elt Ideal .f32) (ix2 n k) := by
  obtain ⟨-, -, -, -, e0, e1, -, -⟩ := token_tiles t
  show V m c main_arg1 (((cfg0.win 1).blk t).view.emb (ix2 p k)) = _
  rw [V_main_arg1]
  refine congrArg (m ((c.tc : Thread nD τ).loc main_arg1) : S32768x512.Idx → Elt Ideal .f32) (funext fun a => Fin.ext ?_)
  match a with
  | ⟨0, _⟩ => show win0_1.index t (0 : Fin 2) * 128 + 1 * p.val = n.val; rw [e0, hn]; omega
  | ⟨1, _⟩ => show win0_1.index t (1 : Fin 2) * 512 + 1 * k.val = k.val; rw [e1]; omega

/-- Entry (p, k) of the value block at point t is entry (128 · t + p, k) of the third argument. -/
theorem values_block (c : Dev nD) (t : Fin cfg0.N) (p : Fin 128) (k : Fin 512) (n : Fin 32768)
    (hn : n.val = t.val * 128 + p.val) :
    (iblk m c 2 t : Vec Ideal S128x512 .f32) (ix2 p k)
      = (m ((c.tc : Thread nD τ).loc main_arg2) : S32768x512.Idx → Elt Ideal .f32) (ix2 n k) := by
  obtain ⟨-, -, -, -, -, -, e0, e1⟩ := token_tiles t
  show V m c main_arg2 (((cfg0.win 2).blk t).view.emb (ix2 p k)) = _
  rw [V_main_arg2]
  refine congrArg (m ((c.tc : Thread nD τ).loc main_arg2) : S32768x512.Idx → Elt Ideal .f32) (funext fun a => Fin.ext ?_)
  match a with
  | ⟨0, _⟩ => show win0_2.index t (0 : Fin 2) * 128 + 1 * p.val = n.val; rw [e0, hn]; omega
  | ⟨1, _⟩ => show win0_2.index t (1 : Fin 2) * 512 + 1 * k.val = k.val; rw [e1]; omega

/-- The query projection's block at any point is the fourth argument, entry by entry: the block is the whole array, and the conversion changes no entry. -/
theorem queryWeights_block (c : Dev nD) (t : Fin cfg0.N) (k : Fin 512) (d : Fin 4096) :
    ((iblk m c 3 t : Vec Ideal S512x4096 .bf16) (ix2 k d) : EReal)
      = (m ((c.tc : Thread nD τ).loc main_arg3) : S512x4096.Idx → Elt Ideal .f32) (ix2 k d) := by
  obtain ⟨e0, e1, -, -, -, -, -, -, -, -⟩ := whole_windows t
  show (V m c main_v0 : S512x4096.Idx → Elt Ideal .bf16) (((cfg0.win 3).blk t).view.emb (ix2 k d)) = _
  rw [queryWeights_entry]
  show (m ((c.tc : Thread nD τ).loc main_arg3) : S512x4096.Idx → Elt Ideal .f32) (((cfg0.win 3).blk t).view.emb (ix2 k d)) = _
  refine congrArg (m ((c.tc : Thread nD τ).loc main_arg3) : S512x4096.Idx → Elt Ideal .f32) (funext fun a => Fin.ext ?_)
  match a with
  | ⟨0, _⟩ => show win0_3.index t (0 : Fin 2) * 512 + 1 * k.val = k.val; rw [e0]; omega
  | ⟨1, _⟩ => show win0_3.index t (1 : Fin 2) * 4096 + 1 * d.val = d.val; rw [e1]; omega

/-- The key projection's block at any point is the fifth argument, entry by entry. -/
theorem keyWeights_block (c : Dev nD) (t : Fin cfg0.N) (k : Fin 512) (d : Fin 4096) :
    ((iblk m c 4 t : Vec Ideal S512x4096 .bf16) (ix2 k d) : EReal)
      = (m ((c.tc : Thread nD τ).loc main_arg4) : S512x4096.Idx → Elt Ideal .f32) (ix2 k d) := by
  obtain ⟨-, -, e0, e1, -, -, -, -, -, -⟩ := whole_windows t
  show (V m c main_v1 : S512x4096.Idx → Elt Ideal .bf16) (((cfg0.win 4).blk t).view.emb (ix2 k d)) = _
  rw [keyWeights_entry]
  show (m ((c.tc : Thread nD τ).loc main_arg4) : S512x4096.Idx → Elt Ideal .f32) (((cfg0.win 4).blk t).view.emb (ix2 k d)) = _
  refine congrArg (m ((c.tc : Thread nD τ).loc main_arg4) : S512x4096.Idx → Elt Ideal .f32) (funext fun a => Fin.ext ?_)
  match a with
  | ⟨0, _⟩ => show win0_4.index t (0 : Fin 2) * 512 + 1 * k.val = k.val; rw [e0]; omega
  | ⟨1, _⟩ => show win0_4.index t (1 : Fin 2) * 4096 + 1 * d.val = d.val; rw [e1]; omega

/-- The value projection's block at any point is the sixth argument, entry by entry. -/
theorem valueWeights_block (c : Dev nD) (t : Fin cfg0.N) (k : Fin 512) (d : Fin 4096) :
    ((iblk m c 5 t : Vec Ideal S512x4096 .bf16) (ix2 k d) : EReal)
      = (m ((c.tc : Thread nD τ).loc main_arg5) : S512x4096.Idx → Elt Ideal .f32) (ix2 k d) := by
  obtain ⟨-, -, -, -, e0, e1, -, -, -, -⟩ := whole_windows t
  show (V m c main_v2 : S512x4096.Idx → Elt Ideal .bf16) (((cfg0.win 5).blk t).view.emb (ix2 k d)) = _
  rw [valueWeights_entry]
  show (m ((c.tc : Thread nD τ).loc main_arg5) : S512x4096.Idx → Elt Ideal .f32) (((cfg0.win 5).blk t).view.emb (ix2 k d)) = _
  refine congrArg (m ((c.tc : Thread nD τ).loc main_arg5) : S512x4096.Idx → Elt Ideal .f32) (funext fun a => Fin.ext ?_)
  match a with
  | ⟨0, _⟩ => show win0_5.index t (0 : Fin 2) * 512 + 1 * k.val = k.val; rw [e0]; omega
  | ⟨1, _⟩ => show win0_5.index t (1 : Fin 2) * 4096 + 1 * d.val = d.val; rw [e1]; omega

/-- The output projection's block at any point is the seventh argument, entry by entry. -/
theorem outWeights_block (c : Dev nD) (t : Fin cfg0.N) (k : Fin 4096) (d : Fin 512) :
    ((iblk m c 6 t : Vec Ideal S4096x512 .bf16) (ix2 k d) : EReal)
      = (m ((c.tc : Thread nD τ).loc main_arg6) : S4096x512.Idx → Elt Ideal .f32) (ix2 k d) := by
  obtain ⟨-, -, -, -, -, -, e0, e1, -, -⟩ := whole_windows t
  show (V m c main_v3 : S4096x512.Idx → Elt Ideal .bf16) (((cfg0.win 6).blk t).view.emb (ix2 k d)) = _
  rw [outWeights_entry]
  show (m ((c.tc : Thread nD τ).loc main_arg6) : S4096x512.Idx → Elt Ideal .f32) (((cfg0.win 6).blk t).view.emb (ix2 k d)) = _
  refine congrArg (m ((c.tc : Thread nD τ).loc main_arg6) : S4096x512.Idx → Elt Ideal .f32) (funext fun a => Fin.ext ?_)
  match a with
  | ⟨0, _⟩ => show win0_6.index t (0 : Fin 2) * 4096 + 1 * k.val = k.val; rw [e0]; omega
  | ⟨1, _⟩ => show win0_6.index t (1 : Fin 2) * 512 + 1 * d.val = d.val; rw [e1]; omega

/-- Entry (0, j) of the bias block at any point is entry j of the eighth argument: both sit at row-major position j. -/
theorem bias_block (c : Dev nD) (t : Fin cfg0.N) (j : Fin 512) :
    (iblk m c 7 t : Vec Ideal S1x512 .f32) (ix2 (0 : Fin 1) j)
      = (m ((c.tc : Thread nD τ).loc main_arg7) : S512.Idx → Elt Ideal .f32) (ix1 j) := by
  obtain ⟨-, -, -, -, -, -, -, -, e0, e1⟩ := whole_windows t
  show (V m c main_v4 : S1x512.Idx → Elt Ideal .f32) (((cfg0.win 7).blk t).view.emb (ix2 (0 : Fin 1) j)) = _
  rw [bias_entry]
  refine shapeCast_apply _ _ _ (ix1 j) ?_
  rw [Shape.rowMajor_val_one, Shape.rowMajor_val_two]
  show j.val = (win0_7.index t (0 : Fin 2) * 1 + 1 * 0) * 512 + (win0_7.index t (1 : Fin 2) * 512 + 1 * j.val)
  rw [e0, e1]; omega

/-! ## What a point writes back is its tile of the result -/

/-- The whole result: row n is `tokenRow` of rows n of the first three arguments, the four weight matrices and the
    bias row. -/
abbrev result (c : Dev nD) : FVec Ideal S32768x512 .f32 :=
  Cert.HeadAttention.wholeArray (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- Point t writes back block t of `result`: entry (p, j) of the stored tile is `tokenRow` of rows p of the token
    blocks, which are rows 128 · t + p of the token arrays, and entry (p, j) of block t of the result array is its
    entry (128 · t + p, j). -/
theorem tile_eq (c : Dev nD) (t : Fin cfg0.N) :
    (dats m 0 c).flushed 8 t = ((cfg0.win 8).blk t).view.read (Elt Ideal) (result m c) := by
  rw [Value.flushed8]
  unfold Gen.out0_8
  rw [View.canon_unit_zero zeroOffsets]
  simp only [View.ld_unit_zero (S := S128x512) zeroOffsets, View.ld_unit_zero (S := S512x4096) zeroOffsets,
    View.ld_unit_zero (S := S4096x512) zeroOffsets, View.ld_unit_zero (S := S1x512) zeroOffsets]
  funext y
  obtain ⟨p, j, rfl⟩ : ∃ (p : Fin 128) (j : Fin 512), y = ix2 p j := ⟨y 0, y 1, eq_ix2 y⟩
  have hp : p.val < 128 := p.isLt
  have ht : t.val < 256 := lt_of_lt_of_eq t.isLt N_0
  obtain ⟨e0, e1, -⟩ := token_tiles t
  show k0_pay1 (F := Ideal) (k0_pay2 (F := Ideal) (iblk m c 0 t) (iblk m c 1 t) (iblk m c 2 t) (iblk m c 3 t) (iblk m c 4 t)
      (iblk m c 5 t)) (iblk m c 6 t) (iblk m c 7 t) (ix2 p j) = result m c (((cfg0.win 8).blk t).view.emb (ix2 p j))
  refine (tile_entry (iblk m c 0 t) (iblk m c 1 t) (iblk m c 2 t) (iblk m c 3 t) (iblk m c 4 t) (iblk m c 5 t)
    (iblk m c 6 t) (iblk m c 7 t)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    ⟨t.val * 128 + p.val, by omega⟩ p j
    (fun k => queries_block m c t p k _ rfl) (fun k => keys_block m c t p k _ rfl) (fun k => values_block m c t p k _ rfl)
    (queryWeights_block m c t) (keyWeights_block m c t) (valueWeights_block m c t) (outWeights_block m c t)
    (bias_block m c t)).trans ?_
  refine congrArg (result m c) (funext fun a => Fin.ext ?_)
  match a with
  | ⟨0, _⟩ => show t.val * 128 + p.val = win0_8.index t (0 : Fin 2) * 128 + 1 * p.val; rw [e0]; omega
  | ⟨1, _⟩ => show j.val = win0_8.index t (1 : Fin 2) * 512 + 1 * j.val; rw [e1]; omega

/-! ## The tiles cover the array -/

/-- An entry of the result array is in point t's block iff each coordinate is in the block's range on its axis. -/
theorem mem_tile (t : Fin cfg0.N) (i : S32768x512.Idx) :
    i ∈ ((cfg0.win 8).blk t).view.set ↔ ∀ a : Fin 2, win0_8.index t a * S128x512.size a ≤ (i a).val
      ∧ (i a).val < win0_8.index t a * S128x512.size a + S128x512.size a := by
  show i ∈ ((View.whole main_v5).slice (win0_8.rect t)).set ↔ _
  rw [View.set_slice_whole, Rect.mem_set_unit]
  exact Iff.rfl

/-- Row r of the result array lies in the block of point r / 128, which is written back. -/
theorem cover (i : S32768x512.Idx) :
    ∃ t : Fin cfg0.N, (cfg0.win 8).flush t = true ∧ i ∈ ((cfg0.win 8).blk t).view.set := by
  have hi0 : (i 0).val < 32768 := (i 0).isLt
  have hi1 : (i 1).val < 512 := (i 1).isLt
  have hN : cfg0.N = 256 := N_0
  have hq : (i 0).val / 128 < cfg0.N := by rw [hN]; omega
  obtain ⟨e0, e1, -⟩ := token_tiles ⟨(i 0).val / 128, hq⟩
  have e0' : win0_8.index ⟨(i 0).val / 128, hq⟩ (0 : Fin 2) = (i 0).val / 128 := e0
  refine ⟨⟨(i 0).val / 128, hq⟩, flush0_8 _, ?_⟩
  rw [mem_tile]
  intro a
  match a with
  | ⟨0, _⟩ =>
    show win0_8.index ⟨(i 0).val / 128, hq⟩ (0 : Fin 2) * 128 ≤ (i 0).val
      ∧ (i 0).val < win0_8.index ⟨(i 0).val / 128, hq⟩ (0 : Fin 2) * 128 + 128
    rw [e0']; omega
  | ⟨1, _⟩ =>
    show win0_8.index ⟨(i 0).val / 128, hq⟩ (1 : Fin 2) * 512 ≤ (i 1).val
      ∧ (i 1).val < win0_8.index ⟨(i 0).val / 128, hq⟩ (1 : Fin 2) * 512 + 512
    rw [e1]; omega

/-! ## The array after the run -/

/-- After the last point the result array is `result`: every point writes back its block of it, and the blocks cover
    the array. -/
theorem final (c : Dev nD) : (Gen.dats m 0 c).arrAt 8 cfg0.N = result m c :=
  (dats m 0 c).arrAt_eq_of_cover 8 (result m c) (fun t _ => tile_eq m c t) cover

/-- The run: the result array ends at `result`, the eight arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (final m c), (h c).2⟩) (Value.run_blocks m ρ)

end Cert.KernelIdeal.ArrayValue

end
-- ==== Proof.RefValue.lean ====
/-
  The reference program's result is the whole-array function of the interface.

  The reference computes, over all 32768 tokens at once: three projections, each re-read as eight heads of 512 features;
  the 8 × 8 scores per token; the row maximum from the word of −∞; the shifted exponentials; their row sums; the weights;
  the mixed heads, laid flat again; the last projection; the bias. Every stage, read at an index whose first coordinate
  is the token n, is the corresponding piece of the interface evaluated at rows n of the three inputs. One lemma per
  stage says so at explicit coordinates; the last one is the claim.
-/
import proofs.«148500_j58875411694307_1_alg».proof.Proof.Gen.ReferenceIdeal.Read
import proofs.«148500_j58875411694307_1_alg».proof.Proof.Spec
import Idealize.ShloMosaic.Lib.ValueIdx
import Idealize.ShloMosaic.PureOps.Reduce
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
open Cert.HeadAttention

/-- Row n of an input array, projected by a weight matrix: a flat row of 4096 entries. -/
abbrev P (X : FVec Ideal S32768x512 .f32) (W : FVec Ideal S512x4096 .f32) (n : Fin 32768) : Fin 4096 → EReal :=
  proj (fun k => X (ix2 n k)) (fun k c => W (ix2 k c))

/-- Token n's 8 × 8 scores. -/
abbrev Sc (x0 x1 : FVec Ideal S32768x512 .f32) (x3 x4 : FVec Ideal S512x4096 .f32) (n : Fin 32768) : Fin 8 → Fin 8 → EReal :=
  scores (P x0 x3 n) (P x1 x4 n)

/-! ### The projections and their reading as heads -/

/-- A projection at (n, c) contracts row n of the input with column c of the matrix. -/
theorem v0_at (X : FVec Ideal S32768x512 .f32) (W : FVec Ideal S512x4096 .f32) (n : Fin 32768) (c : Fin 4096) :
    val_main_v0 (F := Ideal) X W (ix2 n c) = P X W n c := by
  rw [val_main_v0_apply]
  refine Finset.sum_congr rfl fun k _ => ?_
  have el : lidx_main_v0 (ix2 n c) k = ix2 n k :=
    funext fun a => Fin.ext (by match a with | ⟨0, _⟩ => rfl | ⟨1, _⟩ => rfl)
  have er : ridx_main_v0 (ix2 n c) k = ix2 k c :=
    funext fun a => Fin.ext (by match a with | ⟨0, _⟩ => rfl | ⟨1, _⟩ => rfl)
  rw [el, er]

/-- Entry (n, h, d) of the three-axis reading sits at (n, h · 512 + d) of the flat array. -/
theorem idx_v1_at (n : Fin 32768) (h : Fin 8) (d : Fin 512) : idx_main_v1 (ix3 n h d) = ix2 n (flat h d) := by
  funext a
  apply Fin.ext
  have hh := h.isLt
  have hd := d.isLt
  match a with
  | ⟨0, _⟩ => show ((n.val * 8 + h.val) * 512 + d.val) / 4096 = n.val; omega
  | ⟨1, _⟩ => show ((n.val * 8 + h.val) * 512 + d.val) % 4096 = h.val * 512 + d.val; omega

/-- Head h, feature d of token n's projected row. -/
theorem v1_at (X : FVec Ideal S32768x512 .f32) (W : FVec Ideal S512x4096 .f32) (n : Fin 32768) (h : Fin 8) (d : Fin 512) :
    val_main_v1 (F := Ideal) X W (ix3 n h d) = P X W n (flat h d) := by
  rw [val_main_v1_apply, idx_v1_at, v0_at]

/-- The key and value projections are the same operation on other operands. -/
theorem v3_at (X : FVec Ideal S32768x512 .f32) (W : FVec Ideal S512x4096 .f32) (n : Fin 32768) (h : Fin 8) (d : Fin 512) :
    val_main_v3 (F := Ideal) X W (ix3 n h d) = P X W n (flat h d) := v1_at X W n h d

theorem v5_at (X : FVec Ideal S32768x512 .f32) (W : FVec Ideal S512x4096 .f32) (n : Fin 32768) (h : Fin 8) (d : Fin 512) :
    val_main_v5 (F := Ideal) X W (ix3 n h d) = P X W n (flat h d) := v1_at X W n h d

/-! ### The scores and the row maximum -/

section Scores

variable (x0 x1 : FVec Ideal S32768x512 .f32) (x3 x4 : FVec Ideal S512x4096 .f32) (n : Fin 32768)

/-- The score of heads (h, g) of token n: the inner product over the 512 features. -/
theorem v6_at (h g : Fin 8) : val_main_v6 (F := Ideal) x0 x1 x3 x4 (ix3 n h g) = Sc x0 x1 x3 x4 n h g := by
  rw [val_main_v6_apply]
  refine Finset.sum_congr rfl fun d _ => ?_
  have el : lidx_main_v6 (ix3 n h g) d = ix3 n h d :=
    funext fun a => Fin.ext (by match a with | ⟨0, _⟩ => rfl | ⟨1, _⟩ => rfl | ⟨2, _⟩ => rfl)
  have er : ridx_main_v6 (ix3 n h g) d = ix3 n g d :=
    funext fun a => Fin.ext (by match a with | ⟨0, _⟩ => rfl | ⟨1, _⟩ => rfl | ⟨2, _⟩ => rfl)
  rw [el, er, v1_at, v3_at]

/-- The reduce over the last axis with a maximum body, at (n, h): maximum is commutative and associative, so the result
    is the fold of max from the start word over the eight scores of row h, the index (n, h) with g inserted being (n, h, g). -/
theorem v7_at (h : Fin 8) :
    val_main_v7 (F := Ideal) x0 x1 x3 x4 (ix2 n h) = (Finset.univ : Finset (Fin 8)).fold max bottom (Sc x0 x1 x3 x4 n h) := by
  have hR : S32768x8x8.Reduces [2] S32768x8 := by decide
  unfold val_main_v7
  rw [Host.reduce_eq_fold_single (FloatOps.maximumf (F := Ideal) (φ := .f32)) _ _ reducesTo_S32768x8x8_S32768x8_d2 hR h_S_]
  refine Finset.fold_congr fun g _ => ?_
  have hl : hR.lift (ix2 n h) g = ix3 n h (⟨g.val, g.isLt⟩ : Fin 8) :=
    funext fun c => Fin.ext (by match c with | ⟨0, _⟩ => rfl | ⟨1, _⟩ => rfl | ⟨2, _⟩ => rfl)
  show val_main_v6 (F := Ideal) x0 x1 x3 x4 (hR.lift (ix2 n h) g) = _
  rw [hl, v6_at]
  rfl

/-- The maximum with the broadcast start word: the interface's row maximum. -/
theorem v9_at (h : Fin 8) : val_main_v9 (F := Ideal) x0 x1 x3 x4 (ix2 n h) = rowMax (Sc x0 x1 x3 x4 n) h := by
  rw [val_main_v9_apply, val_main_v8_apply, val_main_cst_0_apply, v7_at]
  rfl

/-- Broadcast along a unit axis and then along the eight columns: every column of row h holds the row maximum. -/
theorem v11_at (h g : Fin 8) : val_main_v11 (F := Ideal) x0 x1 x3 x4 (ix3 n h g) = rowMax (Sc x0 x1 x3 x4 n) h := by
  rw [val_main_v11_apply, val_main_v10_apply]
  have e : idx_main_v10 (idx_main_v11 (ix3 n h g)) = ix2 n h :=
    funext fun a => Fin.ext (by match a with | ⟨0, _⟩ => rfl | ⟨1, _⟩ => rfl)
  rw [e, v9_at]

/-! ### The weights -/

/-- The shifted exponential: the host's subtraction and exponential are the extended reals' own. -/
theorem v13_at (h g : Fin 8) : val_main_v13 (F := Ideal) x0 x1 x3 x4 (ix3 n h g) = shifted (Sc x0 x1 x3 x4 n) h g := by
  rw [val_main_v13_apply, val_main_v12_apply, v6_at, v11_at]
  rfl

/-- The row sum: the host adds the eight terms to its start value, and the start word is zero. -/
theorem v14_at (h : Fin 8) :
    val_main_v14 (F := Ideal) x0 x1 x3 x4 (ix2 n h) = ∑ g : Fin 8, shifted (Sc x0 x1 x3 x4 n) h g := by
  rw [val_main_v14_apply, val_main_cst_1_apply, Ideal.ofBits_def, Ideal.ofBits_zero_f32, zero_add]
  refine Finset.sum_congr rfl fun g _ => ?_
  have e : idx_main_v14 (ix2 n h) g = ix3 n h g :=
    funext fun a => Fin.ext (by match a with | ⟨0, _⟩ => rfl | ⟨1, _⟩ => rfl | ⟨2, _⟩ => rfl)
  rw [e, v13_at]

/-- The row sum broadcast over the eight columns. -/
theorem v16_at (h g : Fin 8) :
    val_main_v16 (F := Ideal) x0 x1 x3 x4 (ix3 n h g) = ∑ g' : Fin 8, shifted (Sc x0 x1 x3 x4 n) h g' := by
  rw [val_main_v16_apply, val_main_v15_apply]
  have e : idx_main_v15 (idx_main_v16 (ix3 n h g)) = ix2 n h :=
    funext fun a => Fin.ext (by match a with | ⟨0, _⟩ => rfl | ⟨1, _⟩ => rfl)
  rw [e, v14_at]

/-- The weight of head g for head h: the host's division is the extended reals' own. -/
theorem v17_at (h g : Fin 8) : val_main_v17 (F := Ideal) x0 x1 x3 x4 (ix3 n h g) = weights (Sc x0 x1 x3 x4 n) h g := by
  rw [val_main_v17_apply, v13_at, v16_at]
  rfl

end Scores

/-! ### The mixed heads, the last projection and the bias -/

section Mix

variable (x0 x1 x2 : FVec Ideal S32768x512 .f32) (x3 x4 x5 : FVec Ideal S512x4096 .f32) (x6 : FVec Ideal S4096x512 .f32)
  (x7 : FVec Ideal S512 .f32) (n : Fin 32768)

/-- Head h, feature d of the mix: the weights of row h against feature d of the eight value heads. -/
theorem v18_at (h : Fin 8) (d : Fin 512) :
    val_main_v18 (F := Ideal) x0 x1 x2 x3 x4 x5 (ix3 n h d)
      = ∑ g : Fin 8, weights (Sc x0 x1 x3 x4 n) h g * P x2 x5 n (flat g d) := by
  rw [val_main_v18_apply]
  refine Finset.sum_congr rfl fun g _ => ?_
  have el : lidx_main_v18 (ix3 n h d) g = ix3 n h g :=
    funext fun a => Fin.ext (by match a with | ⟨0, _⟩ => rfl | ⟨1, _⟩ => rfl | ⟨2, _⟩ => rfl)
  have er : ridx_main_v18 (ix3 n h d) g = ix3 n g d :=
    funext fun a => Fin.ext (by match a with | ⟨0, _⟩ => rfl | ⟨1, _⟩ => rfl | ⟨2, _⟩ => rfl)
  rw [el, er, v17_at, v5_at]

/-- Position c of the flat reading is head c / 512, feature c % 512 of the three-axis array. -/
theorem idx_v19_at (c : Fin 4096) : idx_main_v19 (ix2 n c) = ix3 n (headOf c) (featOf c) := by
  funext a
  apply Fin.ext
  have hc := c.isLt
  match a with
  | ⟨0, _⟩ => show (n.val * 4096 + c.val) / 4096 = n.val; omega
  | ⟨1, _⟩ => show (n.val * 4096 + c.val) / 512 % 8 = c.val / 512; omega
  | ⟨2, _⟩ => show (n.val * 4096 + c.val) % 512 = c.val % 512; omega

/-- The mixed heads laid flat: the interface's mix at position c. -/
theorem v19_at (c : Fin 4096) :
    val_main_v19 (F := Ideal) x0 x1 x2 x3 x4 x5 (ix2 n c) = mixed (P x0 x3 n) (P x1 x4 n) (P x2 x5 n) c := by
  rw [val_main_v19_apply, idx_v19_at, v18_at]
  rfl

/-- The last projection at (n, j). -/
theorem v20_at (j : Fin 512) :
    val_main_v20 (F := Ideal) x0 x1 x2 x3 x4 x5 x6 (ix2 n j)
      = ∑ c : Fin 4096, mixed (P x0 x3 n) (P x1 x4 n) (P x2 x5 n) c * x6 (ix2 c j) := by
  rw [val_main_v20_apply]
  refine Finset.sum_congr rfl fun c _ => ?_
  have el : lidx_main_v20 (ix2 n j) c = ix2 n c :=
    funext fun a => Fin.ext (by match a with | ⟨0, _⟩ => rfl | ⟨1, _⟩ => rfl)
  have er : ridx_main_v20 (ix2 n j) c = ix2 c j :=
    funext fun a => Fin.ext (by match a with | ⟨0, _⟩ => rfl | ⟨1, _⟩ => rfl)
  rw [el, er, v19_at]

/-- The bias row broadcast over the tokens. -/
theorem v22_at (j : Fin 512) : val_main_v22 (F := Ideal) x7 (ix2 n j) = x7 (ix1 j) := by
  rw [val_main_v22_apply, val_main_v21_apply]
  exact congrArg x7 (funext fun a => Fin.ext (by match a with | ⟨0, _⟩ => rfl))

/-- The result at (n, j): the interface's row of token n at j. -/
theorem v23_at (j : Fin 512) :
    val_main_v23 (F := Ideal) x0 x1 x2 x3 x4 x5 x6 x7 (ix2 n j)
      = tokenRow (fun k => x0 (ix2 n k)) (fun k => x1 (ix2 n k)) (fun k => x2 (ix2 n k))
          (fun k c => x3 (ix2 k c)) (fun k c => x4 (ix2 k c)) (fun k c => x5 (ix2 k c)) (fun c j => x6 (ix2 c j))
          (fun j => x7 (ix1 j)) j := by
  rw [val_main_v23_apply, v20_at, v22_at]
  rfl

end Mix

/-- The reference's result is the whole array of the interface. -/
theorem ref_eq (x0 x1 x2 : FVec Ideal S32768x512 .f32) (x3 x4 x5 : FVec Ideal S512x4096 .f32) (x6 : FVec Ideal S4096x512 .f32)
    (x7 : FVec Ideal S512 .f32) :
    Cert.ReferenceIdeal.Read.val_main_v23 (F := Ideal) x0 x1 x2 x3 x4 x5 x6 x7
      = Cert.HeadAttention.wholeArray x0 x1 x2 x3 x4 x5 x6 x7 := by
  funext i
  obtain ⟨n, j, rfl⟩ : ∃ (n : Fin 32768) (j : Fin 512), i = ix2 n j := ⟨i 0, i 1, eq_ix2 i⟩
  exact (v23_at x0 x1 x2 x3 x4 x5 x6 x7 n j).trans (wholeArray_apply x0 x1 x2 x3 x4 x5 x6 x7 n j).symm

end Cert.ReferenceIdeal.RefValue

end
-- ==== Proof.lean ====
/-
  Attention of every token across its eight heads: a kernel that works through the 32768 tokens in 256 tiles of 128, against
  a reference that works on all tokens at once.

  Per token, both programs project the query, key and value rows to eight heads of 512 features, score every pair of
  heads by the inner product of their features, turn each row of the 8 × 8 scores into weights by
  exp (s − max) / Σ exp (s − max), mix the value heads with the weights, lay the heads flat, project back to 512 entries
  and add a bias row. Over the extended reals the kernel's changes of float format are the identity, its products into a
  zero accumulator and the reference's products are the same plain sums, and its reductions along the last axis are the
  reference's; so each program's result row n is one function, `HeadAttention.tokenRow`, of rows n of the three inputs
  (Proof/Spec.lean). No step mixes tokens, which is why a tile of consecutive tokens computes exactly its own rows of the
  whole result, and the 256 tiles cover the array.

  Proof/TileValue.lean reads the value the kernel's body stores for a tile at an entry; Proof/ArrayValue.lean lifts it to
  the whole output array after the run; Proof/RefValue.lean reads the reference's result at an entry. The two results
  are the same array `HeadAttention.wholeArray` of the arguments, with no condition on the inputs: the finiteness
  precondition is not used. The frames are the generated ones, and the kernel's idealization rewrote nothing.
-/
import proofs.«148500_j58875411694307_1_alg».proof.Defs
import proofs.«148500_j58875411694307_1_alg».proof.Proof.Gen.Kernel
import proofs.«148500_j58875411694307_1_alg».proof.Proof.Gen.Kernel.Skeleton
import proofs.«148500_j58875411694307_1_alg».proof.Proof.Gen.Kernel.Launch
import proofs.«148500_j58875411694307_1_alg».proof.Proof.Gen.Kernel.Points
import proofs.«148500_j58875411694307_1_alg».proof.Proof.Gen.Kernel.Frame
import proofs.«148500_j58875411694307_1_alg».proof.Proof.Gen.KernelIdeal
import proofs.«148500_j58875411694307_1_alg».proof.Proof.Gen.KernelIdeal.Skeleton
import proofs.«148500_j58875411694307_1_alg».proof.Proof.Gen.KernelIdeal.Launch
import proofs.«148500_j58875411694307_1_alg».proof.Proof.Gen.KernelIdeal.Points
import proofs.«148500_j58875411694307_1_alg».proof.Proof.Gen.KernelIdeal.Frame
import proofs.«148500_j58875411694307_1_alg».proof.Proof.Gen.ReferenceIdeal
import proofs.«148500_j58875411694307_1_alg».proof.Proof.Gen.Pre_finite_inputs
import proofs.«148500_j58875411694307_1_alg».proof.Proof.Gen.KernelIdeal.Value
import proofs.«148500_j58875411694307_1_alg».proof.Proof.Gen.ReferenceIdeal.Run
import proofs.«148500_j58875411694307_1_alg».proof.Proof.Gen.ReferenceIdeal.Read
import proofs.«148500_j58875411694307_1_alg».proof.Proof.Spec
import proofs.«148500_j58875411694307_1_alg».proof.Proof.TileValue
import proofs.«148500_j58875411694307_1_alg».proof.Proof.ArrayValue
import proofs.«148500_j58875411694307_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its run, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the eight arguments, the kernel's output array and the reference's result are both the
    whole array of per-token results of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v23_eq, Cert.ReferenceIdeal.RefValue.ref_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
